-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S4096x16 .f32) (main_arg4 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩
abbrev S1024x16 : Shape := ⟨2, ![1024, 16]⟩
abbrev S16x1024 : Shape := ⟨2, ![16, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x16, .f32⟩
  | .local _ .vmem, ⟨7, _⟩ => ⟨S1024x16, .f32⟩
  | .local _ .vmem, ⟨8, _⟩ => ⟨S16x1024, .f32⟩
  | .local _ .vmem, ⟨9, _⟩ => ⟨S16x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x1024_S1024x1024_S1024x1024_1_1_0_0_n_n_wf : DotDims.WF S1024x1024 S1024x1024 S1024x1024 [1] [1] [0] [0] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x4096.size a
  hwx0_4 : ∀ i : grid0.Coords, EltTy.bits .f32 = 32 ∨ (Rect.block (s := S16x4096) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S4096x16_S4x4096x16_2_0_01_1_n_n_wf : DotDims.WF S4x4096x4096 S4096x16 S4x4096x16 [2] [0] [0, 1] [1] [] []
  dot_S4x4096x16_S16x4096_S4x4096x4096_2_0_01_1_n_n_wf : DotDims.WF S4x4096x16 S16x4096 S4x4096x4096 [2] [0] [0, 1] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S4096x16_S4x4096x16_2_0_01_1_n_n : DotDims S4x4096x4096 S4096x16 S4x4096x16 where
  lhsContracting := [2]
  rhsContracting := [0]
  lhsNonContracting := [0, 1]
  rhsNonContracting := [1]
  lhsBatch := []
  rhsBatch := []
  wf := dot_S4x4096x4096_S4096x16_S4x4096x16_2_0_01_1_n_n_wf
def dot_S4x4096x16_S16x4096_S4x4096x4096_2_0_01_1_n_n : DotDims S4x4096x16 S16x4096 S4x4096x4096 where
  lhsContracting := [2]
  rhsContracting := [0]
  lhsNonContracting := [0, 1]
  rhsNonContracting := [1]
  lhsBatch := []
  rhsBatch := []
  wf := dot_S4x4096x16_S16x4096_S4x4096x4096_2_0_01_1_n_n_wf

class Facts : Prop extends Facts₀ where

variable [Facts]
-- ==== Proof.Pieces.lean ====
/-
  What one run of the kernel body leaves behind, as values of what it loaded.

  The body keeps two running totals in scratch memory: the 1024 × 1024 block of the main product and the 1024 × 16
  block of the thin product X·A. At the first block of a row's line it stores zeros into both and then adds that
  block's products; at a later block it adds that block's products to what the block before left; at the last block it
  also writes the output block, computed from the two totals it has just updated, the bias block and the block of B.
  Each lemma below reads one of those stored values back as the body's arithmetic applied to the loaded blocks.
-/
import proofs.«177697_j18683107738116_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

section
variable (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S16x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole)
variable (x0 : Vec F S1024x1024 .f32) (x1 : Vec F S1024x1024 .f32) (x2 : Vec F S1x1024 .f32) (x3 : Vec F S1024x16 .f32) (x4 : Vec F S16x1024 .f32)

/-- First block of a line: the main total is the block's products added to the zeros just stored. -/
theorem mainFirst (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz]
  simp only [View.readAt_eq_ld, harg3.read_unread, harg4.read_unread, harg5.read_unread, harg6.read_unread, harg7.read_unread, harg9.read_unread, harg10.read_unread, View.ld_unit_zero (S := S1024x1024) hz, View.ld_unit_zero (S := S1024x16) hz, View.ld_unit_zero (S := S16x1024) hz, View.ld_unit_zero (S := S1x1024) hz, View.readCov_unit_zero (S := S1024x1024) _ hz, View.readCov_unit_zero (S := S1024x16) _ hz]

/-- First block of a line: the thin total likewise. -/
theorem thinFirst (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3 x4 = k0_pay5 x0 x3 k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz]
  simp only [View.readAt_eq_ld, harg3.read_unread, harg4.read_unread, harg5.read_unread, harg6.read_unread, harg7.read_unread, harg9.read_unread, harg10.read_unread, View.ld_unit_zero (S := S1024x1024) hz, View.ld_unit_zero (S := S1024x16) hz, View.ld_unit_zero (S := S16x1024) hz, View.ld_unit_zero (S := S1x1024) hz, View.readCov_unit_zero (S := S1024x1024) _ hz, View.readCov_unit_zero (S := S1024x16) _ hz]

variable (xs0 : Vec F S1024x1024 .f32) (xs1 : Vec F S1024x16 .f32)

/-- A middle block: the main total is the block's products added to the total the block before left. -/
theorem mainMid (hc0 : ¬cond0_0 i) (hc1 : ¬cond0_1 i) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x16) hz, View.ld_unit_zero (S := S16x1024) hz, View.ld_unit_zero (S := S1x1024) hz, View.readCov_unit_zero (S := S1024x1024) _ hz, View.readCov_unit_zero (S := S1024x16) _ hz]

/-- A middle block: the thin total likewise. -/
theorem thinMid (hc0 : ¬cond0_0 i) (hc1 : ¬cond0_1 i) :
    sout0_B_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x16) hz, View.ld_unit_zero (S := S16x1024) hz, View.ld_unit_zero (S := S1x1024) hz, View.readCov_unit_zero (S := S1024x1024) _ hz, View.readCov_unit_zero (S := S1024x16) _ hz]

/-- The last block: the main total as at a middle block. -/
theorem mainLast (hc0 : ¬cond0_0 i) (hc1 : cond0_1 i) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x16) hz, View.ld_unit_zero (S := S16x1024) hz, View.ld_unit_zero (S := S1x1024) hz, View.readCov_unit_zero (S := S1024x1024) _ hz, View.readCov_unit_zero (S := S1024x16) _ hz]

/-- The last block: the thin total as at a middle block. -/
theorem thinLast (hc0 : ¬cond0_0 i) (hc1 : cond0_1 i) :
    sout0_C_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x16) hz, View.ld_unit_zero (S := S16x1024) hz, View.ld_unit_zero (S := S1x1024) hz, View.readCov_unit_zero (S := S1024x1024) _ hz, View.readCov_unit_zero (S := S1024x16) _ hz]

/-- The last block: the output block, from the two totals as just updated, the block of B and the bias block. -/
theorem outLast (hc0 : ¬cond0_0 i) (hc1 : cond0_1 i) :
    out0_C_5 c i arg3 harg3 arg4 harg4 arg5 harg5 arg6 harg6 arg7 harg7 arg8 harg8 arg9 harg9 arg10 harg10 hc0 hc1 x0 x1 x2 x3 x4 xs0 xs1 = k0_pay6 (k0_pay5 x0 x3 xs1) x4 (k0_pay4 x0 x1 xs0) x2 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S1024x1024) hz, View.ld_unit_zero (S := S1024x16) hz, View.ld_unit_zero (S := S16x1024) hz, View.ld_unit_zero (S := S1x1024) hz, View.readCov_unit_zero (S := S1024x1024) _ hz, View.readCov_unit_zero (S := S1024x16) _ hz]

end

end Cert.KernelIdeal.Pieces

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibMatmulRowsByRows.lean ====
/-
  The product of an m×k matrix with the transpose of an n×k matrix, read at an index, at the ideal values.

  With A of m rows and B of n rows, both of k entries, the product contracting the LAST axis of both has at (r, h) the
  entry Σ_l A(r, l)·B(h, l): row r of A against row h of B. At the ideal values, where no rounding and no order of
  summation is left, both the kernel's product into a zero accumulator and the host's product read exactly that sum.
  The four coordinate lemmas say where each operand is read: the contracted axis takes the contraction's one
  coordinate, each operand's kept axis the matching coordinate of the result.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

variable {m k n : ℕ}

/-- The dimension numbers `[1] × [1]`, kept axes `[0]` and `[0]`, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand's kept axis reads the result's first coordinate. -/
theorem lhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's kept axis reads the result's second coordinate. -/
theorem rhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 0).val = (j 1).val := by
  unfold DotDims.rhsIdx
  rw [dif_neg (show ¬(0 : Fin 2) ∈ (dims w).rhsBatch from List.not_mem_nil),
    dif_pos (show (0 : Fin 2) ∈ (dims w).rhsNonContracting from List.mem_singleton.mpr rfl)]
  rfl

/-- The right operand's contracted axis reads the contraction's coordinate. -/
theorem rhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 1).val = (q ⟨0, Nat.one_pos⟩).val :=
  (dims w).rhsIdx_val_of_single rfl j q

/-- The contraction's sum, re-indexed by the contracted coordinate: the left operand is read along its row `r`, the
    right one along its row `h`. -/
theorem sum_contr (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 h l) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 h l := by
    funext ax; apply Fin.ext
    match ax with
    | ⟨0, _⟩ => exact rhs_0 w _ _
    | ⟨1, _⟩ => exact (rhs_1 w _ _).trans c2
  rw [l2, r2]

/-- A kernel's product of an m×k matrix with the transpose of an n×k matrix into the zero accumulator, read at `(r, h)`. -/
theorem matmul_rows_by_rows_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply]
  exact sum_contr w A B r h

/-- The host's product of an m×k matrix with the transpose of an n×k matrix, read at `(r, h)`. -/
theorem dotGeneral_rows_by_rows_apply {φ₁ φ₂ : FTy}
    (w : DotDims.WF ⟨2, ![m, k]⟩ ⟨2, ![n, k]⟩ ⟨2, ![m, n]⟩ [1] [1] [0] [0] [] [])
    (prec : Option ContractPrecision) (sched : HostSchedule) (A : FVec Ideal ⟨2, ![m, k]⟩ φ₁) (B : FVec Ideal ⟨2, ![n, k]⟩ φ₂)
    (r : Fin m) (h : Fin n) :
    FloatOps.dotGeneral (⟨[1], [1], [0], [0], [], [], w⟩ : DotDims _ _ _) prec sched A B (ix2 r h)
      = ∑ l : Fin k, A (ix2 r l) * B (ix2 h l) := by
  rw [Ideal.dotGeneral_apply]
  exact sum_contr w A B r h

end Idealize.ShloMosaic.MatmulRowsByRows

end
-- ==== Proof.LayerSpec.lean ====
/-
  A linear layer with a low-rank correction, over the extended reals.

  X has 16384 rows of 4096 entries; W has one row of 4096 weights per output column; b is a row of 4096 biases; A is
  4096 × 16 and B is 16 × 4096. The layer's entry at row r and output column o is

      (Σ_d X(r, d) · W(o, d) + b(o)) + 2 · Σ_ρ (Σ_d X(r, d) · A(d, ρ)) · B(ρ, o).

  A kernel that walks the 4096 entries of a row in four blocks of 1024 keeps two running totals, one for the main
  product and one for the thin product X·A. After k blocks each total is the sum over the first 1024·k entries of
  the row; every block adds the next 1024 products; after four blocks the totals are the full sums. Only the order
  and the grouping of a finite sum change, which does not matter in a commutative monoid, so nothing here asks the
  entries to be finite.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LayerSpec

open Idealize.ShloMosaic Idealize.ShloMosaic.ValueIdx

/-- The scale 2, as the word both programs carry. -/
abbrev two : EReal := Ideal.ofBits .f32 0x40000000#32

/-! ## A line of 4096 entries summed in blocks of 1024 -/

/-- Entry `n` of a line of 4096 entries, as a coordinate. -/
def col (n : ℕ) : Fin 4096 := ⟨n % 4096, Nat.mod_lt _ (by decide)⟩

theorem col_val (d : Fin 4096) : col d.val = d := Fin.ext (Nat.mod_eq_of_lt d.isLt)

theorem col_block (k : ℕ) (hk : k < 4) (d : Fin 1024) : (col (1024 * k + d.val)).val = 1024 * k + d.val := by
  have := d.isLt
  show (1024 * k + d.val) % 4096 = _
  exact Nat.mod_eq_of_lt (by omega)

/-- The first `1024 · k` terms of a sequence, summed. -/
def partialSum (g : ℕ → EReal) (k : ℕ) : EReal := ∑ n ∈ Finset.range (1024 * k), g n

theorem partialSum_zero (g : ℕ → EReal) : partialSum g 0 = 0 := by
  unfold partialSum; rw [Nat.mul_zero, Finset.range_zero, Finset.sum_empty]

/-- One more block: the next 1024 terms are added. -/
theorem partialSum_succ (g : ℕ → EReal) (k : ℕ) :
    partialSum g (k + 1) = partialSum g k + ∑ d : Fin 1024, g (1024 * k + d.val) := by
  unfold partialSum
  rw [Nat.mul_succ, Finset.sum_range_add, Fin.sum_univ_eq_sum_range (fun d => g (1024 * k + d)) 1024]

/-- Four blocks are the whole line. -/
theorem partialSum_four (f : Fin 4096 → EReal) : partialSum (fun n => f (col n)) 4 = ∑ d : Fin 4096, f d := by
  unfold partialSum
  rw [show 1024 * 4 = 4096 from rfl, ← Fin.sum_univ_eq_sum_range (fun n => f (col n)) 4096]
  exact Finset.sum_congr rfl fun d _ => by rw [col_val]

/-! ## The layer, and the two running totals of its blocked evaluation -/

/-- The layer's value at (row, output column). -/
def layer (X : (⟨2, ![16384, 4096]⟩ : Shape).Idx → EReal) (W : (⟨2, ![4096, 4096]⟩ : Shape).Idx → EReal)
    (b : (⟨2, ![1, 4096]⟩ : Shape).Idx → EReal) (A : (⟨2, ![4096, 16]⟩ : Shape).Idx → EReal)
    (B : (⟨2, ![16, 4096]⟩ : Shape).Idx → EReal) : (⟨2, ![16384, 4096]⟩ : Shape).Idx → EReal :=
  fun j => (∑ d : Fin 4096, X (ix2 (j 0) d) * W (ix2 (j 1) d) + b (ix2 0 (j 1)))
    + two * ∑ r : Fin 16, (∑ d : Fin 4096, X (ix2 (j 0) d) * A (ix2 d r)) * B (ix2 r (j 1))

/-- Row `p` of the `i`-th block of 1024 rows of X. -/
def rowX (i : ℕ) (p : Fin 1024) : Fin 16384 := ⟨(1024 * i + p.val) % 16384, Nat.mod_lt _ (by decide)⟩

/-- Output column `q` of the `j`-th block of 1024 output columns. -/
def colO (j : ℕ) (q : Fin 1024) : Fin 4096 := ⟨(1024 * j + q.val) % 4096, Nat.mod_lt _ (by decide)⟩

theorem rowX_val (i : ℕ) (hi : i < 16) (p : Fin 1024) : (rowX i p).val = 1024 * i + p.val := by
  have := p.isLt
  show (1024 * i + p.val) % 16384 = _
  exact Nat.mod_eq_of_lt (by omega)

theorem colO_val (j : ℕ) (hj : j < 4) (q : Fin 1024) : (colO j q).val = 1024 * j + q.val := by
  have := q.isLt
  show (1024 * j + q.val) % 4096 = _
  exact Nat.mod_eq_of_lt (by omega)

/-- The main product's running total for the block of rows `i` and output columns `j`, after `k` blocks of the line. -/
def accMain (X : (⟨2, ![16384, 4096]⟩ : Shape).Idx → EReal) (W : (⟨2, ![4096, 4096]⟩ : Shape).Idx → EReal)
    (i j k : ℕ) : (⟨2, ![1024, 1024]⟩ : Shape).Idx → EReal :=
  fun y => partialSum (fun n => X (ix2 (rowX i (y 0)) (col n)) * W (ix2 (colO j (y 1)) (col n))) k

/-- The thin product's running total for the block of rows `i`, after `k` blocks of the line. -/
def accThin (X : (⟨2, ![16384, 4096]⟩ : Shape).Idx → EReal) (A : (⟨2, ![4096, 16]⟩ : Shape).Idx → EReal)
    (i k : ℕ) : (⟨2, ![1024, 16]⟩ : Shape).Idx → EReal :=
  fun y => partialSum (fun n => X (ix2 (rowX i (y 0)) (col n)) * A (ix2 (col n) (y 1))) k

theorem accMain_zero (X : (⟨2, ![16384, 4096]⟩ : Shape).Idx → EReal) (W : (⟨2, ![4096, 4096]⟩ : Shape).Idx → EReal)
    (i j : ℕ) (y : (⟨2, ![1024, 1024]⟩ : Shape).Idx) : accMain X W i j 0 y = 0 := partialSum_zero _

theorem accThin_zero (X : (⟨2, ![16384, 4096]⟩ : Shape).Idx → EReal) (A : (⟨2, ![4096, 16]⟩ : Shape).Idx → EReal)
    (i : ℕ) (y : (⟨2, ![1024, 16]⟩ : Shape).Idx) : accThin X A i 0 y = 0 := partialSum_zero _

/-- Block `k` of the line adds its 1024 products to the main total: `xb` and `wb` are the 1024 × 1024 blocks of X and W
    that hold entries `1024·k … 1024·k + 1023` of the rows in question. -/
theorem accMain_succ (X : (⟨2, ![16384, 4096]⟩ : Shape).Idx → EReal) (W : (⟨2, ![4096, 4096]⟩ : Shape).Idx → EReal)
    (i j k : ℕ) (xb wb : (⟨2, ![1024, 1024]⟩ : Shape).Idx → EReal)
    (hx : ∀ p d, xb (ix2 p d) = X (ix2 (rowX i p) (col (1024 * k + d.val))))
    (hw : ∀ q d, wb (ix2 q d) = W (ix2 (colO j q) (col (1024 * k + d.val))))
    (p q : Fin 1024) :
    accMain X W i j k (ix2 p q) + ∑ d : Fin 1024, xb (ix2 p d) * wb (ix2 q d) = accMain X W i j (k + 1) (ix2 p q) := by
  unfold accMain
  rw [partialSum_succ]
  exact congrArg _ (Finset.sum_congr rfl fun d _ => by rw [hx, hw])

/-- The same for the thin total: `ab` is the 1024 × 16 block of A that holds rows `1024·k … 1024·k + 1023`. -/
theorem accThin_succ (X : (⟨2, ![16384, 4096]⟩ : Shape).Idx → EReal) (A : (⟨2, ![4096, 16]⟩ : Shape).Idx → EReal)
    (i k : ℕ) (xb : (⟨2, ![1024, 1024]⟩ : Shape).Idx → EReal) (ab : (⟨2, ![1024, 16]⟩ : Shape).Idx → EReal)
    (hx : ∀ p d, xb (ix2 p d) = X (ix2 (rowX i p) (col (1024 * k + d.val))))
    (ha : ∀ d r, ab (ix2 d r) = A (ix2 (col (1024 * k + d.val)) r))
    (p : Fin 1024) (r : Fin 16) :
    accThin X A i k (ix2 p r) + ∑ d : Fin 1024, xb (ix2 p d) * ab (ix2 d r) = accThin X A i (k + 1) (ix2 p r) := by
  unfold accThin
  rw [partialSum_succ]
  exact congrArg _ (Finset.sum_congr rfl fun d _ => by rw [hx, ha])

/-- After four blocks, the totals, the bias block and the block of B give the layer's entry. -/
theorem layer_of_acc (X : (⟨2, ![16384, 4096]⟩ : Shape).Idx → EReal) (W : (⟨2, ![4096, 4096]⟩ : Shape).Idx → EReal)
    (b : (⟨2, ![1, 4096]⟩ : Shape).Idx → EReal) (A : (⟨2, ![4096, 16]⟩ : Shape).Idx → EReal)
    (B : (⟨2, ![16, 4096]⟩ : Shape).Idx → EReal) (i j : ℕ)
    (bb : (⟨2, ![1, 1024]⟩ : Shape).Idx → EReal) (Bb : (⟨2, ![16, 1024]⟩ : Shape).Idx → EReal)
    (hb : ∀ u q, bb (ix2 u q) = b (ix2 0 (colO j q)))
    (hB : ∀ r q, Bb (ix2 r q) = B (ix2 r (colO j q)))
    (p q : Fin 1024) :
    (accMain X W i j 4 (ix2 p q) + bb (ix2 0 q)) + two * ∑ r : Fin 16, accThin X A i 4 (ix2 p r) * Bb (ix2 r q)
      = layer X W b A B (ix2 (rowX i p) (colO j q)) := by
  unfold layer accMain accThin
  rw [partialSum_four (fun d => X (ix2 (rowX i p) d) * W (ix2 (colO j q) d)), hb]
  refine congrArg _ (congrArg _ (Finset.sum_congr rfl fun r _ => ?_))
  rw [partialSum_four (fun d => X (ix2 (rowX i p) d) * A (ix2 d r)), hB]

/-! ## The same layer over the input as 4 batches of 4096 rows -/

/-- The layer's value at (batch, row in the batch, output column), the bias a plain vector. -/
def layer3 (x : (⟨3, ![4, 4096, 4096]⟩ : Shape).Idx → EReal) (W : (⟨2, ![4096, 4096]⟩ : Shape).Idx → EReal)
    (b : (⟨1, ![4096]⟩ : Shape).Idx → EReal) (A : (⟨2, ![4096, 16]⟩ : Shape).Idx → EReal)
    (B : (⟨2, ![16, 4096]⟩ : Shape).Idx → EReal) : (⟨3, ![4, 4096, 4096]⟩ : Shape).Idx → EReal :=
  fun i => (∑ d : Fin 4096, x (ix3 (i 0) (i 1) d) * W (ix2 (i 2) d) + b (ix1 (i 2)))
    + two * ∑ r : Fin 16, (∑ d : Fin 4096, x (ix3 (i 0) (i 1) d) * A (ix2 d r)) * B (ix2 r (i 2))

/-- Row `s` of batch `bb` is row `4096·bb + s` of the flattened input. -/
def flatRow (bb : Fin 4) (s : Fin 4096) : Fin 16384 :=
  ⟨4096 * bb.val + s.val, by have := bb.isLt; have := s.isLt; omega⟩

/-- The flattened input reads the batched one at the same row-major position. -/
theorem flat_in {α : Type} (x : (⟨3, ![4, 4096, 4096]⟩ : Shape).Idx → α)
    (h : (⟨3, ![4, 4096, 4096]⟩ : Shape).ShapeCasts ⟨2, ![16384, 4096]⟩) (bb : Fin 4) (s d : Fin 4096) :
    shapeCast ⟨2, ![16384, 4096]⟩ x h (ix2 (flatRow bb s) d) = x (ix3 bb s d) :=
  shapeCast_apply x h _ _ (by
    rw [Shape.rowMajor_val_three, Shape.rowMajor_val_two]
    show (bb.val * 4096 + s.val) * 4096 + d.val = (4096 * bb.val + s.val) * 4096 + d.val
    rw [Nat.mul_comm bb.val 4096])

/-- The batched output reads the flat one at the same row-major position. -/
theorem flat_out {α : Type} (y : (⟨2, ![16384, 4096]⟩ : Shape).Idx → α)
    (h : (⟨2, ![16384, 4096]⟩ : Shape).ShapeCasts ⟨3, ![4, 4096, 4096]⟩) (bb : Fin 4) (s o : Fin 4096) :
    shapeCast ⟨3, ![4, 4096, 4096]⟩ y h (ix3 bb s o) = y (ix2 (flatRow bb s) o) :=
  shapeCast_apply y h _ _ (by
    rw [Shape.rowMajor_val_three, Shape.rowMajor_val_two]
    show (4096 * bb.val + s.val) * 4096 + o.val = (bb.val * 4096 + s.val) * 4096 + o.val
    rw [Nat.mul_comm bb.val 4096])

/-- Flatten the input and lay the bias out as a row, apply the layer, un-flatten: the batched layer. -/
theorem layer_flat (x : (⟨3, ![4, 4096, 4096]⟩ : Shape).Idx → EReal) (W : (⟨2, ![4096, 4096]⟩ : Shape).Idx → EReal)
    (b : (⟨1, ![4096]⟩ : Shape).Idx → EReal) (A : (⟨2, ![4096, 16]⟩ : Shape).Idx → EReal)
    (B : (⟨2, ![16, 4096]⟩ : Shape).Idx → EReal)
    (hx : (⟨3, ![4, 4096, 4096]⟩ : Shape).ShapeCasts ⟨2, ![16384, 4096]⟩)
    (hb : (⟨1, ![4096]⟩ : Shape).ShapeCasts ⟨2, ![1, 4096]⟩)
    (ho : (⟨2, ![16384, 4096]⟩ : Shape).ShapeCasts ⟨3, ![4, 4096, 4096]⟩) :
    shapeCast ⟨3, ![4, 4096, 4096]⟩
        (layer (shapeCast ⟨2, ![16384, 4096]⟩ x hx) W (shapeCast ⟨2, ![1, 4096]⟩ b hb) A B) ho
      = layer3 x W b A B := by
  funext i
  obtain ⟨bb, s, o, rfl⟩ : ∃ (bb : Fin 4) (s o : Fin 4096), i = ix3 bb s o := ⟨i 0, i 1, i 2, eq_ix3 i⟩
  rw [flat_out]
  unfold layer layer3
  simp only [flat_in, shapeCast_a_1a_apply]

end Cert.LayerSpec

end
-- ==== Proof.Payloads.lean ====
/-
  The kernel body's arithmetic, read entry by entry at the ideal values.

  A change of float format is the identity there and a product into a zero accumulator is the plain sum of products,
  so: the stored zeros are 0; the main total's update adds Σ_d x(p, d)·w(q, d) (row p of the X block against row q of
  the W block); the thin total's update adds Σ_d x(p, d)·a(d, ρ); and the output block is
  (total(p, q) + bias(q)) + 2·Σ_ρ thin(p, ρ)·B(ρ, q).
-/
import proofs.«177697_j18683107738116_1_alg».proof.Proof.Gen.KernelIdeal.Skeleton
import proofs.«177697_j18683107738116_1_alg».proof.Proof.LibDenseLayer
import proofs.«177697_j18683107738116_1_alg».proof.Proof.LibMatmulRowsByRows
import proofs.«177697_j18683107738116_1_alg».proof.Proof.LayerSpec
import Idealize.ShloMosaic.Lib.Pipeline.Value
import Idealize.ShloMosaic.Lib.ValueIdx
import Idealize.ShloMosaic.Lib.ValueLayout

noncomputable section

namespace Cert.KernelIdeal.Payloads

open Idealize.ShloMosaic Idealize.ShloMosaic.ValueIdx
open Cert.KernelIdeal Cert.KernelIdeal.Gen Cert.LayerSpec

/-- The zeros stored into the main total. -/
theorem zeroMain_apply (j : S1024x1024.Idx) : k0_pay1 (F := Ideal) j = 0 := by
  unfold k0_pay1
  try dsimp only
  rw [shapeCast_self]
  exact Ideal.ofBits_zero_f32

/-- The zeros stored into the thin total. -/
theorem zeroThin_apply (j : S1024x16.Idx) : k0_pay2 (F := Ideal) j = 0 := by
  unfold k0_pay2
  try dsimp only
  rw [shapeCast_self]
  exact Ideal.ofBits_zero_f32

/-- The main total's update at (p, q): the total there plus row p of the X block against row q of the W block. -/
theorem main_apply (x w acc : Vec Ideal S1024x1024 .f32) (p q : Fin 1024) :
    k0_pay4 (F := Ideal) x w acc (ix2 p q) = acc (ix2 p q) + ∑ d : Fin 1024, x (ix2 p d) * w (ix2 q d) := by
  unfold k0_pay4 k0_pay3
  try dsimp only
  simp only [shapeCast_self]
  refine congrArg (acc (ix2 p q) + ·) ?_
  exact MatmulRowsByRows.matmul_rows_by_rows_apply _ none _ _ p q

/-- The thin total's update at (p, ρ): the total there plus row p of the X block against column ρ of the A block. -/
theorem thin_apply (x : Vec Ideal S1024x1024 .f32) (a acc : Vec Ideal S1024x16 .f32) (p : Fin 1024) (r : Fin 16) :
    k0_pay5 (F := Ideal) x a acc (ix2 p r) = acc (ix2 p r) + ∑ d : Fin 1024, x (ix2 p d) * a (ix2 d r) := by
  unfold k0_pay5 k0_pay3
  try dsimp only
  simp only [shapeCast_self]
  refine congrArg (acc (ix2 p r) + ·) ?_
  exact DenseLayer.matmul_rows_apply _ none _ _ p r

/-- The output block at (p, q): (main total + bias) + 2 · (thin total against column q of the B block). -/
theorem out_apply (thin : Vec Ideal S1024x16 .f32) (bblk : Vec Ideal S16x1024 .f32) (acc : Vec Ideal S1024x1024 .f32)
    (bias : Vec Ideal S1x1024 .f32) (p q : Fin 1024) :
    k0_pay6 (F := Ideal) thin bblk acc bias (ix2 p q)
      = (acc (ix2 p q) + bias (ix2 0 q)) + two * ∑ r : Fin 16, thin (ix2 p r) * bblk (ix2 r q) := by
  unfold k0_pay6
  try dsimp only
  simp only [shapeCast_self]
  show (acc (ix2 p q) + broadcastTo S1024x1024 bias broadcasts_S1x1024_S1024x1024 (ix2 p q))
      + two * (FloatOps.matmul (F := Ideal) _ none _ _ (constant (F := Ideal) S1024x1024 .f32 0x00000000#32) (ix2 p q) : EReal) = _
  rw [broadcastTo_1b_ab_apply]
  refine congrArg (fun z => (acc (ix2 p q) + bias (ix2 0 q)) + two * z) ?_
  exact DenseLayer.matmul_rows_apply _ none _ _ p q

end Cert.KernelIdeal.Payloads

end
-- ==== Proof.Blocks.lean ====
/-
  The blocks the kernel's windows read, as entries of the arrays the region finds.

  The grid has 16 · 4 · 4 points; point t works on the block of rows t / 16, the block of output columns (t / 4) % 4
  and block t % 4 of the 4096-long line. Entry (p, d) of the X block is X at row 1024·(t/16) + p and entry
  1024·(t%4) + d of the line; the W block is read the same way by output column; the A block holds rows
  1024·(t%4) … of A; the bias block and the B block hold output columns 1024·((t/4)%4) … .
-/
import proofs.«177697_j18683107738116_1_alg».proof.Proof.Gen.KernelIdeal.Frame
import proofs.«177697_j18683107738116_1_alg».proof.Proof.LayerSpec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.LayerSpec

variable (m : (ℓ : Loc nD τ sig) → Buf (Elt Ideal) ℓ)

/-- The arrays as the region finds them, at their literal shapes. -/
abbrev Xarr (c : Dev nD) : Vec Ideal S16384x4096 .f32 := V m c main_v0
abbrev Warr (c : Dev nD) : Vec Ideal S4096x4096 .f32 := V m c main_arg1
abbrev barr (c : Dev nD) : Vec Ideal S1x4096 .f32 := V m c main_v1
abbrev Aarr (c : Dev nD) : Vec Ideal S4096x16 .f32 := V m c main_arg3
abbrev Barr (c : Dev nD) : Vec Ideal S16x4096 .f32 := V m c main_arg4

/-- The blocks the windows hold at point `t`, at their literal shapes. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t
abbrev ablk (c : Dev nD) (t : Fin cfg0.N) : Vec Ideal S1024x16 .f32 := iblk m c 3 t
abbrev Bblk (c : Dev nD) (t : Fin cfg0.N) : Vec Ideal S16x1024 .f32 := iblk m c 4 t

/-- Which block each window holds at point `t`, decided over the grid's 256 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem lt256 (t : Fin cfg0.N) : t.val < 256 := lt_of_lt_of_eq t.isLt (show cfg0.N = 256 from N_0)

/-- The X block at (p, d). -/
theorem xblk_apply (c : Dev nD) (t : Fin cfg0.N) (i k : ℕ) (hi : t.val / 16 = i) (hk : t.val % 4 = k) (p d : Fin 1024) :
    xblk m c t (ix2 p d) = Xarr m c (ix2 (rowX i p) (col (1024 * k + d.val))) := by
  obtain ⟨e0, e1, -⟩ := idx_facts t
  have hN := lt256 t
  have hp := p.isLt
  have hd := d.isLt
  show iblk m c 0 t (ix2 p d) = _
  unfold iblk
  rw [View.read_apply]
  show V m c main_v0 _ = V m c main_v0 _
  refine congrArg _ ?_
  funext a; apply Fin.ext
  match a with
  | ⟨0, _⟩ =>
    show win0_0.index t (0 : Fin 2) * 1024 + 1 * p.val = (rowX i p).val
    rw [rowX_val i (by omega), e0]; omega
  | ⟨1, _⟩ =>
    show win0_0.index t (1 : Fin 2) * 1024 + 1 * d.val = (col (1024 * k + d.val)).val
    rw [col_block k (by omega), e1]; omega

/-- The W block at (q, d). -/
theorem wblk_apply (c : Dev nD) (t : Fin cfg0.N) (j k : ℕ) (hj : t.val / 4 % 4 = j) (hk : t.val % 4 = k) (q d : Fin 1024) :
    wblk m c t (ix2 q d) = Warr m c (ix2 (colO j q) (col (1024 * k + d.val))) := by
  obtain ⟨-, -, e0, e1, -⟩ := idx_facts t
  have hN := lt256 t
  have hq := q.isLt
  have hd := d.isLt
  show iblk m c 1 t (ix2 q d) = _
  unfold iblk
  rw [View.read_apply]
  show V m c main_arg1 _ = V m c main_arg1 _
  refine congrArg _ ?_
  funext a; apply Fin.ext
  match a with
  | ⟨0, _⟩ =>
    show win0_1.index t (0 : Fin 2) * 1024 + 1 * q.val = (colO j q).val
    rw [colO_val j (by omega), e0]; omega
  | ⟨1, _⟩ =>
    show win0_1.index t (1 : Fin 2) * 1024 + 1 * d.val = (col (1024 * k + d.val)).val
    rw [col_block k (by omega), e1]; omega

/-- The bias block at (u, q). -/
theorem bblk_apply (c : Dev nD) (t : Fin cfg0.N) (j : ℕ) (hj : t.val / 4 % 4 = j) (u : Fin 1) (q : Fin 1024) :
    bblk m c t (ix2 u q) = barr m c (ix2 0 (colO j q)) := by
  obtain ⟨-, -, -, -, e0, e1, -⟩ := idx_facts t
  have hN := lt256 t
  have hq := q.isLt
  have hu := u.isLt
  show iblk m c 2 t (ix2 u q) = _
  unfold iblk
  rw [View.read_apply]
  show V m c main_v1 _ = V m c main_v1 _
  refine congrArg _ ?_
  funext a; apply Fin.ext
  match a with
  | ⟨0, _⟩ =>
    show win0_2.index t (0 : Fin 2) * 1 + 1 * u.val = 0
    rw [e0]; omega
  | ⟨1, _⟩ =>
    show win0_2.index t (1 : Fin 2) * 1024 + 1 * q.val = (colO j q).val
    rw [colO_val j (by omega), e1]; omega

/-- The A block at (d, ρ). -/
theorem ablk_apply (c : Dev nD) (t : Fin cfg0.N) (k : ℕ) (hk : t.val % 4 = k) (d : Fin 1024) (r : Fin 16) :
    ablk m c t (ix2 d r) = Aarr m c (ix2 (col (1024 * k + d.val)) r) := by
  obtain ⟨-, -, -, -, -, -, e0, e1, -⟩ := idx_facts t
  have hN := lt256 t
  have hd := d.isLt
  show iblk m c 3 t (ix2 d r) = _
  unfold iblk
  rw [View.read_apply]
  show V m c main_arg3 _ = V m c main_arg3 _
  refine congrArg _ ?_
  funext a; apply Fin.ext
  match a with
  | ⟨0, _⟩ =>
    show win0_3.index t (0 : Fin 2) * 1024 + 1 * d.val = (col (1024 * k + d.val)).val
    rw [col_block k (by omega), e0]; omega
  | ⟨1, _⟩ =>
    show win0_3.index t (1 : Fin 2) * 16 + 1 * r.val = r.val
    rw [e1]; omega

/-- The B block at (ρ, q). -/
theorem Bblk_apply (c : Dev nD) (t : Fin cfg0.N) (j : ℕ) (hj : t.val / 4 % 4 = j) (r : Fin 16) (q : Fin 1024) :
    Bblk m c t (ix2 r q) = Barr m c (ix2 r (colO j q)) := by
  obtain ⟨-, -, -, -, -, -, -, -, e0, e1, -⟩ := idx_facts t
  have hN := lt256 t
  have hq := q.isLt
  show iblk m c 4 t (ix2 r q) = _
  unfold iblk
  rw [View.read_apply]
  show V m c main_arg4 _ = V m c main_arg4 _
  refine congrArg _ ?_
  funext a; apply Fin.ext
  match a with
  | ⟨0, _⟩ =>
    show win0_4.index t (0 : Fin 2) * 16 + 1 * r.val = r.val
    rw [e0]; omega
  | ⟨1, _⟩ =>
    show win0_4.index t (1 : Fin 2) * 1024 + 1 * q.val = (colO j q).val
    rw [colO_val j (by omega), e1]; omega

end Cert.KernelIdeal.Blocks

end
-- ==== Proof.Totals.lean ====
/-
  The two running totals after every grid point, and the array the kernel leaves.

  Point t of the grid works on rows block t / 16, output-columns block (t / 4) % 4 and block t % 4 of the line. By
  induction on the point, after point t the main total in scratch memory is the sum over the first 1024·(t % 4 + 1)
  entries of the line, for that block of rows and output columns, and the thin total likewise. At t % 4 = 0 the body
  starts from the zeros it has just stored; at the other points from what the point before left, which belongs to the
  same blocks of rows and columns. At t % 4 = 3 the totals are the full sums and the block written back is the layer's
  block; those blocks tile the 16384 × 4096 result, which the host then reshapes to 4 × 4096 × 4096.
-/
import proofs.«177697_j18683107738116_1_alg».proof.Proof.Pieces
import proofs.«177697_j18683107738116_1_alg».proof.Proof.Payloads
import proofs.«177697_j18683107738116_1_alg».proof.Proof.Blocks

set_option maxRecDepth 16384

noncomputable section

namespace Cert.KernelIdeal.Totals

open Idealize.ShloMosaic Idealize.ShloMosaic.TcCoe Idealize.ShloMosaic.ValueIdx Idealize.SL.Sem
open Idealize.ShloMosaic.Pipeline (Dat)
open Cert.KernelIdeal Cert.KernelIdeal.Gen Cert.LayerSpec Cert.KernelIdeal.Blocks Cert.KernelIdeal.Payloads

variable (m : (ℓ : Loc nD τ sig) → Buf (Elt Ideal) ℓ) (ρ : Dev nD → PrngReg)

/-! ## One point's update of each total -/

/-- The stored zeros are the main total after no block. -/
theorem zeroMain_eq (c : Dev nD) (i j : ℕ) :
    (k0_pay1 (F := Ideal) : Vec Ideal S1024x1024 .f32) = accMain (Xarr m c) (Warr m c) i j 0 :=
  funext fun y => (zeroMain_apply y).trans (accMain_zero _ _ i j y).symm

/-- The stored zeros are the thin total after no block. -/
theorem zeroThin_eq (c : Dev nD) (i : ℕ) :
    (k0_pay2 (F := Ideal) : Vec Ideal S1024x16 .f32) = accThin (Xarr m c) (Aarr m c) i 0 :=
  funext fun y => (zeroThin_apply y).trans (accThin_zero _ _ i y).symm

/-- Point `t` takes the main total from `k` blocks to `k + 1`. -/
theorem main_step (c : Dev nD) (t : Fin cfg0.N) (i j k k' : ℕ) (hi : t.val / 16 = i) (hj : t.val / 4 % 4 = j)
    (hk : t.val % 4 = k) (hk' : k' = k + 1) (acc : Vec Ideal S1024x1024 .f32)
    (hacc : acc = accMain (Xarr m c) (Warr m c) i j k) :
    k0_pay4 (F := Ideal) (xblk m c t) (wblk m c t) acc = accMain (Xarr m c) (Warr m c) i j k' := by
  subst hacc hk'
  funext y
  obtain ⟨p, q, rfl⟩ : ∃ (p q : Fin 1024), y = ix2 p q := ⟨y 0, y 1, eq_ix2 y⟩
  rw [main_apply]
  exact accMain_succ _ _ i j k (xblk m c t) (wblk m c t) (fun p d => xblk_apply m c t i k hi hk p d)
    (fun q d => wblk_apply m c t j k hj hk q d) p q

/-- Point `t` takes the thin total from `k` blocks to `k + 1`. -/
theorem thin_step (c : Dev nD) (t : Fin cfg0.N) (i k k' : ℕ) (hi : t.val / 16 = i)
    (hk : t.val % 4 = k) (hk' : k' = k + 1) (acc : Vec Ideal S1024x16 .f32)
    (hacc : acc = accThin (Xarr m c) (Aarr m c) i k) :
    k0_pay5 (F := Ideal) (xblk m c t) (ablk m c t) acc = accThin (Xarr m c) (Aarr m c) i k' := by
  subst hacc hk'
  funext y
  obtain ⟨p, r, rfl⟩ : ∃ (p : Fin 1024) (r : Fin 16), y = ix2 p r := ⟨y 0, y 1, eq_ix2 y⟩
  rw [thin_apply]
  exact accThin_succ _ _ i k (xblk m c t) (ablk m c t) (fun p d => xblk_apply m c t i k hi hk p d)
    (fun d r => ablk_apply m c t k hk d r) p r

/-! ## The totals after every point -/

theorem totals (c : Dev nD) : ∀ (n : ℕ) (h : n < cfg0.N),
    (outsAt0 m c n h).2.1 = accMain (Xarr m c) (Warr m c) (n / 16) (n / 4 % 4) (n % 4 + 1)
    ∧ (outsAt0 m c n h).2.2 = accThin (Xarr m c) (Aarr m c) (n / 16) (n % 4 + 1)
  | 0, h => by
    rw [outsAt0_A m c ⟨0, h⟩ rfl (by show ¬(0 : ℕ) % 4 = 3; decide)]
    dsimp only
    exact ⟨(Pieces.mainFirst (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) _ _).trans
        (main_step m c ⟨0, h⟩ _ _ 0 _ rfl rfl rfl rfl _ (zeroMain_eq m c _ _)),
      (Pieces.thinFirst (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) _ _).trans
        (thin_step m c ⟨0, h⟩ _ 0 _ rfl rfl rfl _ (zeroThin_eq m c _))⟩
  | n + 1, h => by
    have hN : n + 1 < 256 := lt_of_lt_of_eq h (show cfg0.N = 256 from N_0)
    by_cases h0 : (n + 1) % 4 = 0
    · have h1 : ¬(n + 1) % 4 = 3 := by omega
      rw [outsAt0_A m c ⟨n + 1, h⟩ h0 h1]
      dsimp only
      exact ⟨(Pieces.mainFirst (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) _ _).trans
          (main_step m c ⟨n + 1, h⟩ _ _ 0 _ rfl rfl h0 (by omega) _ (zeroMain_eq m c _ _)),
        (Pieces.thinFirst (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) _ _).trans
          (thin_step m c ⟨n + 1, h⟩ _ 0 _ rfl h0 (by omega) _ (zeroThin_eq m c _))⟩
    · have ih := totals c n (Nat.lt_of_succ_lt h)
      have ei : n / 16 = (n + 1) / 16 := by omega
      have ej : n / 4 % 4 = (n + 1) / 4 % 4 := by omega
      rw [ei, ej] at ih
      by_cases h1 : (n + 1) % 4 = 3
      · rw [outsAt0_C m c ⟨n + 1, h⟩ h0 h1]
        dsimp only
        exact ⟨(Pieces.mainLast (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) _ _ _ _).trans
            (main_step m c ⟨n + 1, h⟩ _ _ (n % 4 + 1) _ rfl rfl (by show (n + 1) % 4 = n % 4 + 1; omega) (by omega) _ ih.1),
          (Pieces.thinLast (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) _ _ _ _).trans
            (thin_step m c ⟨n + 1, h⟩ _ (n % 4 + 1) _ rfl (by show (n + 1) % 4 = n % 4 + 1; omega) (by omega) _ ih.2)⟩
      · rw [outsAt0_B m c ⟨n + 1, h⟩ h0 h1]
        dsimp only
        exact ⟨(Pieces.mainMid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) _ _ _ _).trans
            (main_step m c ⟨n + 1, h⟩ _ _ (n % 4 + 1) _ rfl rfl (by show (n + 1) % 4 = n % 4 + 1; omega) (by omega) _ ih.1),
          (Pieces.thinMid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) _ _ _ _).trans
            (thin_step m c ⟨n + 1, h⟩ _ (n % 4 + 1) _ rfl (by show (n + 1) % 4 = n % 4 + 1; omega) (by omega) _ ih.2)⟩

end Cert.KernelIdeal.Totals

end
-- ==== Proof.KernelValue.lean ====
/-
  What the kernel's program leaves in its result array: the batched layer of its arguments.

  At the last block of a line (t % 4 = 3) the two totals are the full sums, so the block written back is the layer's
  block for rows 1024·(t/16) … and output columns 1024·((t/4)%4) … . Every entry of the 16384 × 4096 result lies in
  exactly such a block, namely that of t = 16·(row / 1024) + 4·(column / 1024) + 3, so the array the region leaves is the
  layer of the flattened input, the weights, the bias row, A and B. The host's last operation reshapes it to
  4 × 4096 × 4096, and the two reshapes before the region produced the flattened input and the bias row.
-/
import proofs.«177697_j18683107738116_1_alg».proof.Proof.Totals
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.LayerSpec Cert.KernelIdeal.Blocks Cert.KernelIdeal.Payloads
open Cert.KernelIdeal.Totals

variable (m : (ℓ : Loc nD τ sig) → Buf (Elt Ideal) ℓ) (ρ : Dev nD → PrngReg)

/-- The layer of the arrays the region finds, as contents of the region's result array. -/
abbrev flatResult (c : Dev nD) : Buf (Elt Ideal) ((c : Thread nD τ).loc main_v2) :=
  layer (Xarr m c) (Warr m c) (barr m c) (Aarr m c) (Barr m c)

/-- What a point that writes back writes: its block of the layer. -/
theorem flushed_eq (c : Dev nD) (t : Fin cfg0.N) (hf : (cfg0.win 5).flush t = true) :
    (dats m 0 c).flushed 5 t = ((cfg0.win 5).blk t).view.read (Elt Ideal) (flatResult m c) := by
  have h1 : t.val % 4 = 3 := (flush0_5 t).mp hf
  have h0 : ¬t.val % 4 = 0 := by omega
  have hN := lt256 t
  obtain ⟨-, -, -, -, -, -, -, -, -, -, e0, e1⟩ := idx_facts t
  have hprev := totals m c (t.val - 1) (Nat.lt_of_le_of_lt (Nat.sub_le _ _) t.isLt)
  have ei : (t.val - 1) / 16 = t.val / 16 := by omega
  have ej : (t.val - 1) / 4 % 4 = t.val / 4 % 4 := by omega
  have ek : (t.val - 1) % 4 + 1 = 3 := by omega
  rw [ei, ej, ek] at hprev
  show (cfg0.win 5).cut (grid0.coords t) ((dats m 0 c).after 5 t) = _
  rw [after0_5, outsAt0_C m c t h0 h1]
  dsimp only
  rw [Pieces.outLast (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) _ _ _ _,
    main_step m c t _ _ 3 4 rfl rfl h1 rfl _ hprev.1, thin_step m c t _ 3 4 rfl h1 rfl _ hprev.2]
  have key : ∀ y : S1024x1024.Idx,
      k0_pay6 (F := Ideal) (accThin (Xarr m c) (Aarr m c) (t.val / 16) 4) (Bblk m c t)
          (accMain (Xarr m c) (Warr m c) (t.val / 16) (t.val / 4 % 4) 4) (bblk m c t) y
        = flatResult m c (((cfg0.win 5).blk t).view.emb y) := by
    intro y
    obtain ⟨p, q, rfl⟩ : ∃ (p q : Fin 1024), y = ix2 p q := ⟨y 0, y 1, eq_ix2 y⟩
    have hp := p.isLt
    have hq := q.isLt
    have hemb : ((cfg0.win 5).blk t).view.emb (ix2 p q) = ix2 (rowX (t.val / 16) p) (colO (t.val / 4 % 4) q) := by
      funext a; apply Fin.ext
      match a with
      | ⟨0, _⟩ =>
        show win0_5.index t (0 : Fin 2) * 1024 + 1 * p.val = (rowX (t.val / 16) p).val
        rw [rowX_val _ (by omega), e0]; omega
      | ⟨1, _⟩ =>
        show win0_5.index t (1 : Fin 2) * 1024 + 1 * q.val = (colO (t.val / 4 % 4) q).val
        rw [colO_val _ (by omega), e1]; omega
    rw [hemb, out_apply]
    exact layer_of_acc _ _ _ _ _ (t.val / 16) (t.val / 4 % 4) (bblk m c t) (Bblk m c t)
      (fun u q => bblk_apply m c t _ rfl u q) (fun r q => Bblk_apply m c t _ rfl r q) p q
  exact funext key

/-- An entry of the result array is in point `t`'s block iff each coordinate is in the block's range on its axis. -/
theorem mem_blk (t : Fin cfg0.N) (i : S16384x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every entry of the result array lies in the block of a point that writes back. -/
theorem cover (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 256 := N_0
  let t : Fin cfg0.N := ⟨16 * ((i 0).val / 1024) + 4 * ((i 1).val / 1024) + 3, by rw [hN]; omega⟩
  have ht : t.val = 16 * ((i 0).val / 1024) + 4 * ((i 1).val / 1024) + 3 := rfl
  obtain ⟨-, -, -, -, -, -, -, -, -, -, e0, e1⟩ := idx_facts t
  refine ⟨t, (flush0_5 t).mpr (by omega), ?_⟩
  rw [mem_blk]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1024 ≤ (i 1).val ∧ (i 1).val < win0_5.index t (1 : Fin 2) * 1024 + 1024
    rw [e1]; omega

/-- The region leaves the layer in its result array. -/
theorem final (c : Dev nD) : (dats m 0 c).arrAt 5 cfg0.N = flatResult m c :=
  (dats m 0 c).arrAt_eq_of_cover 5 (flatResult m c) (flushed_eq m c) cover

/-- The flattened input the region finds: the first reshape of the batched argument. -/
theorem Xarr_eq (c : Dev nD) :
    Xarr m c = shapeCast S16384x4096 (m ((c : Thread nD τ).loc main_arg0)) shapeCasts_S4x4096x4096_S16384x4096 := by
  show StableHlo.after hostOps0 (fun b => m (c, b)) (Proc.devRef .tc main_v0) = _
  after_results
  rfl

/-- The bias row the region finds: the second reshape, of the bias vector. -/
theorem barr_eq (c : Dev nD) :
    barr m c = shapeCast S1x4096 (m ((c : Thread nD τ).loc main_arg2)) shapeCasts_S4096_S1x4096 := by
  show StableHlo.after hostOps0 (fun b => m (c, b)) (Proc.devRef .tc main_v1) = _
  after_results
  rfl

/-- The batched layer of the arguments, as contents of the program's result. -/
abbrev result (c : Dev nD) : Buf (Elt Ideal) ((c : Thread nD τ).loc main_v3) :=
  layer3 (m ((c : Thread nD τ).loc main_arg0)) (m ((c : Thread nD τ).loc main_arg1)) (m ((c : Thread nD τ).loc main_arg2))
    (m ((c : Thread nD τ).loc main_arg3)) (m ((c : Thread nD τ).loc main_arg4))

/-- The host's last reshape, applied to what the region left, is the batched layer. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = flatResult m c from
    (Pipeline.withArrays_arr spec0 launch0.win.arr_inj c _ _ 5).trans (final m c)]
  show shapeCast S4x4096x4096 (layer (Xarr m c) (Warr m c) (barr m c) (Aarr m c) (Barr m c)) shapeCasts_S16384x4096_S4x4096x4096 = _
  rw [Xarr_eq, barr_eq, show Warr m c = m ((c : Thread nD τ).loc main_arg1) from V_main_arg1 m c,
    show Aarr m c = m ((c : Thread nD τ).loc main_arg3) from V_main_arg3 m c,
    show Barr m c = m ((c : Thread nD τ).loc main_arg4) from V_main_arg4 m c]
  exact layer_flat _ _ _ _ _ _ _ _

/-- The program's run, read: the result at the batched layer of the arguments, the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Result

end
-- ==== Proof.RefValue.lean ====
/-
  The reference, read entry by entry: it is the batched layer.

  The reference multiplies the batched input by W transposed (contracting the last axis of both), adds the bias along
  the last axis, and adds twice the product of (input · A) with B. Read at (batch, row, output column) that is
  (Σ_d x·W + b) + 2·Σ_ρ (Σ_d x·A)·B, term for term the layer's definition.
-/
import proofs.«177697_j18683107738116_1_alg».proof.Proof.Gen.ReferenceIdeal.Read
import proofs.«177697_j18683107738116_1_alg».proof.Proof.LayerSpec

noncomputable section

namespace Cert.ReferenceIdeal.RefValue

open Idealize.ShloMosaic Idealize.ShloMosaic.ValueIdx
open Cert.ReferenceIdeal Cert.ReferenceIdeal.Read Cert.LayerSpec

/-- The reference's result is the batched layer of its arguments. -/
theorem ref_eq (x : (⟨S4x4096x4096, .f32⟩ : BufTy).Contents (Elt Ideal)) (W : (⟨S4096x4096, .f32⟩ : BufTy).Contents (Elt Ideal))
    (b : (⟨S4096, .f32⟩ : BufTy).Contents (Elt Ideal)) (A : (⟨S4096x16, .f32⟩ : BufTy).Contents (Elt Ideal))
    (B : (⟨S16x4096, .f32⟩ : BufTy).Contents (Elt Ideal)) :
    val_main_v8 (F := Ideal) x W b A B = layer3 x W b A B := by
  funext i
  obtain ⟨bb, s, o, rfl⟩ : ∃ (bb : Fin 4) (s o : Fin 4096), i = ix3 bb s o := ⟨i 0, i 1, i 2, eq_ix3 i⟩
  have e0l : ∀ k : Fin 4096, lidx_main_v0 (ix3 bb s o) k = ix3 bb s k := fun k =>
    funext fun a => Fin.ext (by match a with | ⟨0, _⟩ => rfl | ⟨1, _⟩ => rfl | ⟨2, _⟩ => rfl)
  have e0r : ∀ k : Fin 4096, ridx_main_v0 (ix3 bb s o) k = ix2 o k := fun k =>
    funext fun a => Fin.ext (by match a with | ⟨0, _⟩ => rfl | ⟨1, _⟩ => rfl)
  have e12 : idx_main_v1 (idx_main_v2 (ix3 bb s o)) = ix1 o :=
    funext fun a => Fin.ext (by match a with | ⟨0, _⟩ => rfl)
  have e5l : ∀ r : Fin 16, lidx_main_v5 (ix3 bb s o) r = ix3 bb s r := fun r =>
    funext fun a => Fin.ext (by match a with | ⟨0, _⟩ => rfl | ⟨1, _⟩ => rfl | ⟨2, _⟩ => rfl)
  have e5r : ∀ r : Fin 16, ridx_main_v5 (ix3 bb s o) r = ix2 r o := fun r =>
    funext fun a => Fin.ext (by match a with | ⟨0, _⟩ => rfl | ⟨1, _⟩ => rfl)
  have e4l : ∀ (r : Fin 16) (d : Fin 4096), lidx_main_v4 (ix3 bb s r) d = ix3 bb s d := fun r d =>
    funext fun a => Fin.ext (by match a with | ⟨0, _⟩ => rfl | ⟨1, _⟩ => rfl | ⟨2, _⟩ => rfl)
  have e4r : ∀ (r : Fin 16) (d : Fin 4096), ridx_main_v4 (ix3 bb s r) d = ix2 d r := fun r d =>
    funext fun a => Fin.ext (by match a with | ⟨0, _⟩ => rfl | ⟨1, _⟩ => rfl)
  rw [val_main_v8_apply, val_main_v3_apply, val_main_v7_apply, val_main_v0_apply, val_main_v2_apply, val_main_v1_apply,
    val_main_v6_apply, val_main_cst_apply, val_main_v5_apply]
  simp only [val_main_v4_apply, e0l, e0r, e12, e5l, e5r, e4l, e4r]
  rfl

end Cert.ReferenceIdeal.RefValue

end
-- ==== Proof.lean ====
/-
  A linear layer with a rank-16 correction: the kernel against its reference, over the extended reals.

  Both programs compute, for the input x of 4 batches of 4096 rows of 4096 entries, the weights W, the bias b and
  the thin matrices A and B,

      out(β, s, o) = (Σ_d x(β, s, d)·W(o, d) + b(o)) + 2·Σ_ρ (Σ_d x(β, s, d)·A(d, ρ))·B(ρ, o).

  The reference writes this with three whole products. The kernel flattens the batches, walks each row's 4096 entries
  in four blocks of 1024 and keeps two running totals, one for Σ_d x·W and one for Σ_d x·A; at the fourth block it
  adds the bias and twice the thin total's product with B, and the host reshapes the result back into batches. At the
  ideal values a change of float format is the identity and a product is the plain sum of products, so the two sides
  differ only in the grouping of finite sums in a commutative monoid: no finiteness of the inputs is needed, and the
  precondition is never opened. The ideal pass rewrote nothing, so the idealization claim is trivial; the frames of the
  two kernel programs are the generated ones, the reference's frame is its generated run with the result dropped.
-/
import proofs.«177697_j18683107738116_1_alg».proof.Defs
import proofs.«177697_j18683107738116_1_alg».proof.Proof.Gen.Kernel
import proofs.«177697_j18683107738116_1_alg».proof.Proof.Gen.Kernel.Skeleton
import proofs.«177697_j18683107738116_1_alg».proof.Proof.Gen.Kernel.Launch
import proofs.«177697_j18683107738116_1_alg».proof.Proof.Gen.Kernel.Points
import proofs.«177697_j18683107738116_1_alg».proof.Proof.Gen.Kernel.Frame
import proofs.«177697_j18683107738116_1_alg».proof.Proof.Gen.KernelIdeal
import proofs.«177697_j18683107738116_1_alg».proof.Proof.Gen.KernelIdeal.Skeleton
import proofs.«177697_j18683107738116_1_alg».proof.Proof.Gen.KernelIdeal.Launch
import proofs.«177697_j18683107738116_1_alg».proof.Proof.Gen.KernelIdeal.Points
import proofs.«177697_j18683107738116_1_alg».proof.Proof.Gen.KernelIdeal.Frame
import proofs.«177697_j18683107738116_1_alg».proof.Proof.Gen.ReferenceIdeal
import proofs.«177697_j18683107738116_1_alg».proof.Proof.Gen.ReferenceIdeal.Run
import proofs.«177697_j18683107738116_1_alg».proof.Proof.Gen.ReferenceIdeal.Read
import proofs.«177697_j18683107738116_1_alg».proof.Proof.Gen.Pre_finite_inputs
import proofs.«177697_j18683107738116_1_alg».proof.Proof.KernelValue
import proofs.«177697_j18683107738116_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the batched layer of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
